-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x4096 : Shape := ⟨3, ![4, 512, 4096]⟩
abbrev S11008x4096 : Shape := ⟨2, ![11008, 4096]⟩
abbrev S11008 : Shape := ⟨1, ![11008]⟩
abbrev S_ : Shape := ⟨0, ![]⟩

class Facts : Prop where
  bcast_S_S4x512x4096 : S_.BroadcastsInDim S4x512x4096 (![] : Fin 0 → Fin S4x512x4096.rank)
  reducesTo_S4x512x4096_S_d0_1_2 : S4x512x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x512x4096 .f32) (main_arg1 : IVec S11008x4096 32) (main_arg2 : FVec F S11008 .f32) (main_arg3 : FVec F S11008 .f32) : IVec S_ 1 :=
  let main_v0 : FVec F S4x512x4096 .f32 := Host.absf main_arg0
  let main_cst : FVec F S_ .f32 := constant S_ .f32 0x7F800000#32
  let main_v1 : FVec F S4x512x4096 .f32 := broadcastInDim S4x512x4096 ![] bcast_S_S4x512x4096 main_cst
  let main_v2 : IVec S4x512x4096 1 := cmpf .olt main_v0 main_v1
  let main_c : IVec S_ 1 := constantI S_ 1 1#1
  let main_v3 : IVec S_ 1 := (fun x v => Host.reduce IntOp.andi x v reducesTo_S4x512x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x512x4096 : Shape := ⟨3, ![4, 512, 4096]⟩
abbrev S11008x4096 : Shape := ⟨2, ![11008, 4096]⟩
abbrev S11008 : Shape := ⟨1, ![11008]⟩
abbrev S2048x4096 : Shape := ⟨2, ![2048, 4096]⟩
abbrev S1x11008 : Shape := ⟨2, ![1, 11008]⟩
abbrev S2048x11008 : Shape := ⟨2, ![2048, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S4x512x11008 : Shape := ⟨3, ![4, 512, 11008]⟩

abbrev nBuf : Space → Nat
  | .hbm => 9
  | .vmem => 10
  | .smem => 0
  | _ => 0

abbrev bufTy : (tb : Table) → Fin (tcTables nBuf tb) → BufTy
  | .hbm, ⟨0, _⟩ => ⟨S4x512x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S2048x4096, .f32⟩
  | .hbm, ⟨5, _⟩ => ⟨S1x11008, .f32⟩
  | .hbm, ⟨6, _⟩ => ⟨S1x11008, .f32⟩
  | .hbm, ⟨7, _⟩ => ⟨S2048x11008, .f32⟩
  | .hbm, ⟨8, _⟩ => ⟨S4x512x11008, .f32⟩
  | .local _ .vmem, ⟨0, _⟩ => ⟨S1024x4096, .f32⟩
  | .local _ .vmem, ⟨1, _⟩ => ⟨S1024x4096, .f32⟩
  | .local _ .vmem, ⟨2, _⟩ => ⟨S256x4096, .i32⟩
  | .local _ .vmem, ⟨3, _⟩ => ⟨S256x4096, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x512x4096_S2048x4096 : S4x512x4096.ShapeCasts S2048x4096
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S2048x11008_S4x512x11008 : S2048x11008.ShapeCasts S4x512x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S2048x4096.size a
  hwx0_0 : ∀ i : grid0.Coords, EltTy.bits .f32 = 32 ∨ (Rect.block (s := S2048x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S2048x11008.size a
  hwx0_4 : ∀ i : grid0.Coords, EltTy.bits .f32 = 32 ∨ (Rect.block (s := S2048x11008) S1024x256.size (cc0_transform_4 i) (hinb0_4 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x4096 : Shape := ⟨3, ![4, 512, 4096]⟩
abbrev S11008x4096 : Shape := ⟨2, ![11008, 4096]⟩
abbrev S11008 : Shape := ⟨1, ![11008]⟩
abbrev S11008x1 : Shape := ⟨2, ![11008, 1]⟩
abbrev S4x512x11008 : Shape := ⟨3, ![4, 512, 11008]⟩
abbrev S1x1x11008 : Shape := ⟨3, ![1, 1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S4x512x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S11008x1, .f32⟩
  | .hbm, ⟨6, _⟩ => ⟨S11008x4096, .f32⟩
  | .hbm, ⟨7, _⟩ => ⟨S11008x4096, .f32⟩
  | .hbm, ⟨8, _⟩ => ⟨S4x512x11008, .f32⟩
  | .hbm, ⟨9, _⟩ => ⟨S1x1x11008, .f32⟩
  | .hbm, ⟨10, _⟩ => ⟨S4x512x11008, .f32⟩
  | .hbm, ⟨11, _⟩ => ⟨S4x512x11008, .f32⟩
  | _, _ => ⟨S4x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x512x11008_0_1_2 : S1x1x11008.BroadcastsInDim S4x512x11008 (![0, 1, 2] : Fin 3 → Fin S4x512x11008.rank)
  dot_S4x512x4096_S11008x4096_S4x512x11008_2_1_01_0_n_n_wf : DotDims.WF S4x512x4096 S11008x4096 S4x512x11008 [2] [1] [0, 1] [0] [] []

variable [Facts₀]

def dot_S4x512x4096_S11008x4096_S4x512x11008_2_1_01_0_n_n : DotDims S4x512x4096 S11008x4096 S4x512x11008 where
  lhsContracting := [2]
  rhsContracting := [1]
  lhsNonContracting := [0, 1]
  rhsNonContracting := [0]
  lhsBatch := []
  rhsBatch := []
  wf := dot_S4x512x4096_S11008x4096_S4x512x11008_2_1_01_0_n_n_wf

class Facts : Prop extends Facts₀ where

variable [Facts]
-- ==== Proof.Linear.lean ====
/-
  The function both programs compute, and the one law that joins their two arrangements.

  A linear layer with integer weights and one scale per output channel: at output position (b, s, o)
      y = (∑ k, x[b, s, k] · w[o, k]) · scale[o] + bias[o],
  the integer w[o, k] read as the real number it denotes. The kernel contracts first and scales the finished sum
  (`affine`); the reference scales every weight and contracts afterwards (`foldedScale`). On the extended reals a factor
  moves across a sum only where nothing is infinite, so the law is proved on real-valued entries: the activations and the
  scales are real by the precondition, and an integer read as a number is always real. The bias is added last on both
  sides and may be any extended real.
-/
import Idealize.ShloMosaic.PureOps.Ideal
import Idealize.ShloMosaic.Lib.ValueIdx

noncomputable section

open scoped BigOperators

namespace Cert.QuantLinear

open Idealize.ShloMosaic Idealize.ShloMosaic.ValueIdx

/-- Activations [4, 512, 4096], weights [11008, 4096], per-channel vectors [11008], result [4, 512, 11008]. -/
abbrev ActS : Shape := ⟨3, ![4, 512, 4096]⟩
abbrev WtS : Shape := ⟨2, ![11008, 4096]⟩
abbrev ChS : Shape := ⟨1, ![11008]⟩
abbrev OutS : Shape := ⟨3, ![4, 512, 11008]⟩

/-- The weight w[o, k] as the real number the 32-bit word denotes, read signed. -/
abbrev wt (w : WtS.Idx → BitVec 32) (o : Fin 11008) (k : Fin 4096) : EReal := (((w (ix2 o k)).toInt : ℝ) : EReal)

/-- At (b, s, o): contract, then scale the sum by the channel's scale, then add the channel's bias. -/
def affineAt (x : ActS.Idx → EReal) (w : WtS.Idx → BitVec 32) (s b : ChS.Idx → EReal)
    (p : Fin 4) (q : Fin 512) (o : Fin 11008) : EReal :=
  (∑ k : Fin 4096, x (ix3 p q k) * wt w o k) * s (ix1 o) + b (ix1 o)

/-- At (b, s, o): scale each weight by its channel's scale, contract, then add the channel's bias. -/
def foldedScaleAt (x : ActS.Idx → EReal) (w : WtS.Idx → BitVec 32) (s b : ChS.Idx → EReal)
    (p : Fin 4) (q : Fin 512) (o : Fin 11008) : EReal :=
  (∑ k : Fin 4096, x (ix3 p q k) * (wt w o k * s (ix1 o))) + b (ix1 o)

/-- The two as whole arrays. -/
def affine (x : ActS.Idx → EReal) (w : WtS.Idx → BitVec 32) (s b : ChS.Idx → EReal) : OutS.Idx → EReal :=
  fun i => affineAt x w s b (i 0) (i 1) (i 2)
def foldedScale (x : ActS.Idx → EReal) (w : WtS.Idx → BitVec 32) (s b : ChS.Idx → EReal) : OutS.Idx → EReal :=
  fun i => foldedScaleAt x w s b (i 0) (i 1) (i 2)

/-- The coercion of the reals into the extended reals commutes with finite sums. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- On real-valued entries a common right factor leaves the sum: ∑ aₖ · (cₖ · r) = (∑ aₖ · cₖ) · r. -/
theorem sum_scale_out {ι : Type} [Fintype ι] (a c : ι → ℝ) (r : ℝ) :
    ∑ k, (a k : EReal) * ((c k : EReal) * (r : EReal)) = (∑ k, (a k : EReal) * (c k : EReal)) * (r : EReal) := by
  simp only [← EReal.coe_mul]
  rw [← coe_sum, ← coe_sum, ← EReal.coe_mul, Finset.sum_mul]
  exact congrArg _ (Finset.sum_congr rfl fun k _ => by ring)

/-- With real activations and a real scale the two arrangements agree at every position. -/
theorem foldedScaleAt_eq_affineAt (x : ActS.Idx → EReal) (w : WtS.Idx → BitVec 32) (s b : ChS.Idx → EReal)
    (hx : ∀ j, ∃ r : ℝ, x j = (r : EReal)) (hs : ∀ j, ∃ r : ℝ, s j = (r : EReal))
    (p : Fin 4) (q : Fin 512) (o : Fin 11008) :
    foldedScaleAt x w s b p q o = affineAt x w s b p q o := by
  obtain ⟨sr, hsr⟩ := hs (ix1 o)
  choose xr hxr using hx
  unfold foldedScaleAt affineAt
  rw [hsr]
  simp only [hxr]
  exact congrArg (· + b (ix1 o)) (sum_scale_out (fun k => xr (ix3 p q k)) (fun k => ((w (ix2 o k)).toInt : ℝ)) sr)

/-- So they are one array. -/
theorem foldedScale_eq_affine (x : ActS.Idx → EReal) (w : WtS.Idx → BitVec 32) (s b : ChS.Idx → EReal)
    (hx : ∀ j, ∃ r : ℝ, x j = (r : EReal)) (hs : ∀ j, ∃ r : ℝ, s j = (r : EReal)) :
    foldedScale x w s b = affine x w s b :=
  funext fun i => foldedScaleAt_eq_affineAt x w s b hx hs (i 0) (i 1) (i 2)

end Cert.QuantLinear

end
-- ==== Proof.Finite.lean ====
/-
  What the precondition says of the float arguments: every entry of the activations, of the scales and of the bias is a
  real number. The predicate is the conjunction of three tests "every |v| is below +∞"; each test is an `and` over all
  entries of a comparison bit, so a result of 1 gives the bit at every entry, and |v| < +∞ on the extended reals leaves
  only the real numbers (both infinities have absolute value +∞).
-/
import proofs.«139617_j69956427317869_1_alg».proof.Pre_finite_inputs
import proofs.«139617_j69956427317869_1_alg».proof.Proof.Gen.Pre_finite_inputs
import proofs.«139617_j69956427317869_1_alg».proof.Proof.Linear
import Idealize.ShloMosaic.Lib.ReduceAll

noncomputable section

namespace Cert.QuantLinear

open Idealize.ShloMosaic Idealize.ShloMosaic.ValueIdx

/-- A one-bit word made from a Boolean is 1 exactly when the Boolean is true. -/
theorem bit_one_iff (c : Bool) : BitVec.ofBool c = 1#1 ↔ c = true := by cases c <;> decide

/-- The pattern 0x7F800000 denotes +∞, and an extended real whose absolute value max v (−v) is below +∞ is a real. -/
theorem real_of_abs_lt_top (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  have hlt : max v (-v) < ⊤ := by
    unfold Ideal.cmp at h
    exact of_decide_eq_true ((bit_one_iff _).1 h)
  induction v using EReal.rec with
  | bot => simp at hlt
  | top => simp at hlt
  | coe r => exact ⟨r, rfl⟩

/-- The predicate's result has one index. -/
instance : Subsingleton Cert.Pre_finite_inputs.S_.Idx := ⟨fun a b => funext fun d => d.elim0⟩

/-- The precondition at the ideal instance: all three float arguments are real-valued. -/
theorem real_entries_of_pre (x : ActS.Idx → EReal) (w : WtS.Idx → BitVec 32) (s b : ChS.Idx → EReal)
    (h : Cert.Pre_finite_inputs.fn (F := Ideal) x w s b = fun _ => 1#1) :
    (∀ j, ∃ r : ℝ, x j = (r : EReal)) ∧ (∀ j, ∃ r : ℝ, s j = (r : EReal)) ∧ (∀ j, ∃ r : ℝ, b j = (r : EReal)) := by
  have h0 := congrFun h ix0
  dsimp only [Cert.Pre_finite_inputs.fn] at h0
  obtain ⟨hxs, hb⟩ := IntOp.andi_eq_one.1 h0
  obtain ⟨hx, hs⟩ := IntOp.andi_eq_one.1 hxs
  exact ⟨fun j => real_of_abs_lt_top (x j) (Host.reduce_andi_all _ _ _ _ _ hx j),
    fun j => real_of_abs_lt_top (s j) (Host.reduce_andi_all _ _ _ _ _ hs j),
    fun j => real_of_abs_lt_top (b j) (Host.reduce_andi_all _ _ _ _ _ hb j)⟩

end Cert.QuantLinear

end
-- ==== Proof.RefSide.lean ====
/-
  The reference, stage by stage, is `foldedScale`: the weights are converted to numbers, each multiplied by its row's scale
  (the scale vector broadcast along the contraction axis), the activations are contracted against those scaled rows over
  the last axis, and the bias is broadcast over the two leading axes and added. Read at an output position (b, s, o) that
  is ∑ k, x[b, s, k] · (w[o, k] · scale[o]) + bias[o].
-/
import proofs.«139617_j69956427317869_1_alg».proof.Proof.Gen.ReferenceIdeal.Read
import proofs.«139617_j69956427317869_1_alg».proof.Proof.Linear

noncomputable section

namespace Cert.QuantLinear

open Idealize.ShloMosaic Idealize.ShloMosaic.ValueIdx
open Cert.ReferenceIdeal Cert.ReferenceIdeal.Read

/-- The reference's last stage at (b, s, o): the sum over the contraction axis of the activation times the scaled weight,
    plus the bias of the output channel. -/
theorem reference_at (x : ActS.Idx → EReal) (w : WtS.Idx → BitVec 32) (s b : ChS.Idx → EReal)
    (p : Fin 4) (q : Fin 512) (o : Fin 11008) :
    val_main_v7 (F := Ideal) x w s b (ix3 p q o) = foldedScaleAt x w s b p q o := by
  have el : ∀ k : Fin 4096, lidx_main_v4 (ix3 p q o) k = ix3 p q k := fun k => funext fun a => by
    match a with
    | ⟨0, _⟩ => rfl
    | ⟨1, _⟩ => rfl
    | ⟨2, _⟩ => rfl
  have er : ∀ k : Fin 4096, ridx_main_v4 (ix3 p q o) k = ix2 o k := fun k => funext fun a => by
    match a with
    | ⟨0, _⟩ => rfl
    | ⟨1, _⟩ => rfl
  have es : ∀ k : Fin 4096, idx_main_v1 (idx_main_v2 (ix2 o k)) = ix1 o := fun k => funext fun a => by
    match a with
    | ⟨0, _⟩ => rfl
  have eb : idx_main_v5 (idx_main_v6 (ix3 p q o)) = ix1 o := funext fun a => by
    match a with
    | ⟨0, _⟩ => rfl
  rw [val_main_v7_apply, val_main_v4_apply, val_main_v6_apply, val_main_v5_apply, eb]
  simp only [el, er, val_main_v3_apply, val_main_v0_apply, val_main_v2_apply, val_main_v1_apply, es]
  rfl

/-- As arrays. -/
theorem reference_eq_foldedScale (x : ActS.Idx → EReal) (w : WtS.Idx → BitVec 32) (s b : ChS.Idx → EReal) :
    val_main_v7 (F := Ideal) x w s b = foldedScale x w s b := by
  funext i
  obtain ⟨p, q, o, rfl⟩ : ∃ (p : Fin 4) (q : Fin 512) (o : Fin 11008), i = ix3 p q o := ⟨i 0, i 1, i 2, eq_ix3 i⟩
  exact reference_at x w s b p q o

/-- On real-valued activations and scales the reference is the contraction scaled afterwards. -/
theorem reference_eq_affine (x : ActS.Idx → EReal) (w : WtS.Idx → BitVec 32) (s b : ChS.Idx → EReal)
    (hx : ∀ j, ∃ r : ℝ, x j = (r : EReal)) (hs : ∀ j, ∃ r : ℝ, s j = (r : EReal)) :
    val_main_v7 (F := Ideal) x w s b = affine x w s b :=
  (reference_eq_foldedScale x w s b).trans (foldedScale_eq_affine x w s b hx hs)

end Cert.QuantLinear

end
-- ==== Proof.Payload.lean ====
/-
  One grid point's arithmetic, read at a position of its [1024, 256] output tile. The tile of activations [1024, 4096] is
  contracted with the tile of weights [256, 4096] over the shared last axis into a zero accumulator, so entry (p, q) is
  ∑ k, x[p, k] · w[q, k] (the weights converted to numbers; the narrowings to bfloat16 change nothing on exact values);
  the row [1, 256] of scales is spread over the 1024 rows and multiplied in, the row of biases likewise and added:
      tile[p, q] = (∑ k, x[p, k] · w[q, k]) · scale[0, q] + bias[0, q].
-/
import proofs.«139617_j69956427317869_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.QuantLinear

open Idealize.ShloMosaic Idealize.ShloMosaic.ValueIdx
open Cert.KernelIdeal Cert.KernelIdeal.Gen

/-- The operand positions of the tile contraction: the left operand is read at (row of the output, k), -/
theorem lhs_tile_0 (j : S1024x256.Idx) (q : dot_S1024x4096_S256x4096_S1024x256_1_1_0_0_n_n.contr.Idx) :
    (dot_S1024x4096_S256x4096_S1024x256_1_1_0_0_n_n.lhsIdx j q 0).val = (j 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
theorem lhs_tile_1 (j : S1024x256.Idx) (q : dot_S1024x4096_S256x4096_S1024x256_1_1_0_0_n_n.contr.Idx) :
    (dot_S1024x4096_S256x4096_S1024x256_1_1_0_0_n_n.lhsIdx j q 1).val = (q ⟨0, by decide⟩).val :=
  dot_S1024x4096_S256x4096_S1024x256_1_1_0_0_n_n.lhsIdx_val_of_single rfl j q
/-- and the right operand at (column of the output, k). -/
theorem rhs_tile_0 (j : S1024x256.Idx) (q : dot_S1024x4096_S256x4096_S1024x256_1_1_0_0_n_n.contr.Idx) :
    (dot_S1024x4096_S256x4096_S1024x256_1_1_0_0_n_n.rhsIdx j q 0).val = (j 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
theorem rhs_tile_1 (j : S1024x256.Idx) (q : dot_S1024x4096_S256x4096_S1024x256_1_1_0_0_n_n.contr.Idx) :
    (dot_S1024x4096_S256x4096_S1024x256_1_1_0_0_n_n.rhsIdx j q 1).val = (q ⟨0, by decide⟩).val :=
  dot_S1024x4096_S256x4096_S1024x256_1_1_0_0_n_n.rhsIdx_val_of_single rfl j q

/-- The tile contraction into the zero accumulator, at (p, q): the sum over the 4096 shared positions of the products. -/
theorem matmul_at (a : FVec Ideal S1024x4096 .bf16) (c : FVec Ideal S256x4096 .bf16) (p : Fin 1024) (q : Fin 256) :
    matmul dot_S1024x4096_S256x4096_S1024x256_1_1_0_0_n_n none a c (constant S1024x256 .f32 0x00000000#32) (ix2 p q)
      = ∑ k : Fin 4096, a (ix2 p k) * c (ix2 q k) := by
  simp only [matmul]
  rw [Ideal.matmul_constant_zero_apply, ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k := funext fun ax => Fin.ext (by
    match ax with
    | ⟨0, _⟩ => exact lhs_tile_0 _ _
    | ⟨1, _⟩ => exact (lhs_tile_1 _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k := funext fun ax => Fin.ext (by
    match ax with
    | ⟨0, _⟩ => exact rhs_tile_0 _ _
    | ⟨1, _⟩ => exact (rhs_tile_1 _ _).trans hk)
  rw [el, er]

/-- The body's one stored value at (p, q), from the four loaded tiles. -/
theorem body_at (x0 : Vec Ideal S1024x4096 .f32) (x1 : Vec Ideal S256x4096 .i32) (x2 x3 : Vec Ideal S1x256 .f32)
    (p : Fin 1024) (q : Fin 256) :
    k0_pay1 (F := Ideal) x0 x1 x2 x3 (ix2 p q)
      = (∑ k : Fin 4096, x0 (ix2 p k) * (((x1 (ix2 q k)).toInt : ℝ) : EReal)) * x2 (ix2 (0 : Fin 1) q) + x3 (ix2 (0 : Fin 1) q) := by
  unfold k0_pay1
  rw [addf_apply, mulf_apply, matmul_at, shapeCast_self, shapeCast_self, shapeCast_self,
    broadcastTo_1b_ab_apply, broadcastTo_1b_ab_apply]
  rfl

end Cert.QuantLinear

end
-- ==== Proof.KernelArray.lean ====
/-
  The array the pallas_call leaves, as one function of the arrays it was launched on.

  The grid is 2 × 43. Point (a, j) is handed rows 1024·a … 1024·a + 1023 of the activations [2048, 4096] (all 4096
  columns), rows 256·j … 256·j + 255 of the weights [11008, 4096], and columns 256·j … 256·j + 255 of the scale row and of
  the bias row [1, 11008]; it writes tile (a, j), rows 1024·a … and columns 256·j …, of the result [2048, 11008]. So the
  value it stores at tile position (p, q) is the whole-array function
      rows[r, o] = (∑ k, X[r, k] · W[o, k]) · S[0, o] + B[0, o]
  at r = 1024·a + p, o = 256·j + q, and since the 86 tiles cover [2048, 11008] the array ends holding `rows`.
-/
import proofs.«139617_j69956427317869_1_alg».proof.Proof.Gen.KernelIdeal.Frame
import proofs.«139617_j69956427317869_1_alg».proof.Proof.Payload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.QuantLinear

open Idealize.ShloMosaic.ValueIdx
open Cert.KernelIdeal Cert.KernelIdeal.Gen

/-- Row r, channel o of the flattened layer: contract row r of X with row o of W, scale by S[0, o], add B[0, o]. -/
def rowsAt (X : S2048x4096.Idx → EReal) (W : S11008x4096.Idx → BitVec 32) (S B : S1x11008.Idx → EReal)
    (r : Fin 2048) (o : Fin 11008) : EReal :=
  (∑ k : Fin 4096, X (ix2 r k) * (((W (ix2 o k)).toInt : ℝ) : EReal)) * S (ix2 (0 : Fin 1) o) + B (ix2 (0 : Fin 1) o)

/-- The same as an array [2048, 11008]. -/
def rows (X : S2048x4096.Idx → EReal) (W : S11008x4096.Idx → BitVec 32) (S B : S1x11008.Idx → EReal) :
    S2048x11008.Idx → EReal := fun i => rowsAt X W S B (i 0) (i 1)

/-- One tile: if the four loaded tiles are rows 1024·a … of X, rows 256·j … of W and columns 256·j … of S and B, then
    the stored value at (p, q) is `rows` at (1024·a + p, 256·j + q). -/
theorem tile_at (x0 : Vec Ideal S1024x4096 .f32) (x1 : Vec Ideal S256x4096 .i32) (x2 x3 : Vec Ideal S1x256 .f32)
    (X : S2048x4096.Idx → EReal) (W : S11008x4096.Idx → BitVec 32) (S B : S1x11008.Idx → EReal) (a j : ℕ)
    (h0 : ∀ (p : Fin 1024) (k : Fin 4096) (r : Fin 2048), r.val = a * 1024 + p.val → x0 (ix2 p k) = X (ix2 r k))
    (h1 : ∀ (q : Fin 256) (k : Fin 4096) (o : Fin 11008), o.val = j * 256 + q.val → x1 (ix2 q k) = W (ix2 o k))
    (h2 : ∀ (q : Fin 256) (o : Fin 11008), o.val = j * 256 + q.val → x2 (ix2 (0 : Fin 1) q) = S (ix2 (0 : Fin 1) o))
    (h3 : ∀ (q : Fin 256) (o : Fin 11008), o.val = j * 256 + q.val → x3 (ix2 (0 : Fin 1) q) = B (ix2 (0 : Fin 1) o))
    (y : S1024x256.Idx) (i : S2048x11008.Idx) (hr : (i 0).val = a * 1024 + (y 0).val) (ho : (i 1).val = j * 256 + (y 1).val) :
    k0_pay1 (F := Ideal) x0 x1 x2 x3 y = rows X W S B i := by
  obtain ⟨p, q, rfl⟩ : ∃ (p : Fin 1024) (q : Fin 256), y = ix2 p q := ⟨y 0, y 1, eq_ix2 y⟩
  obtain ⟨r, o, rfl⟩ : ∃ (r : Fin 2048) (o : Fin 11008), i = ix2 r o := ⟨i 0, i 1, eq_ix2 i⟩
  have hr' : r.val = a * 1024 + p.val := hr
  have ho' : o.val = j * 256 + q.val := ho
  rw [body_at, h2 q o ho', h3 q o ho']
  show _ = rowsAt X W S B r o
  unfold rowsAt
  refine congrArg (fun z => z * S (ix2 (0 : Fin 1) o) + B (ix2 (0 : Fin 1) o)) (Finset.sum_congr rfl fun k _ => ?_)
  rw [h0 p k r hr', h1 q k o ho']

variable (m : (ℓ : Loc nD τ sig) → Buf (Elt Ideal) ℓ) (ρ : Dev nD → PrngReg)

theorem hz : (![0, 0] : Fin 2 → Nat) = fun _ => 0 := funext fun a => by fin_cases a <;> rfl

/-- The activations' tile at a point is rows (block row index)·1024 … of the flattened activations. -/
theorem xtile (c : Dev nD) (t : Fin cfg0.N) (h1 : win0_0.index t (1 : Fin 2) = 0)
    (p : Fin 1024) (k : Fin 4096) (r : Fin 2048) (hr : r.val = win0_0.index t (0 : Fin 2) * 1024 + p.val) :
    (iblk m c 0 t : Vec Ideal S1024x4096 .f32) (ix2 p k) = (V m c main_v0 : S2048x4096.Idx → EReal) (ix2 r k) := by
  unfold iblk
  rw [View.read_apply]
  show V m c main_v0 _ = V m c main_v0 _
  refine congrArg (V m c main_v0) (funext fun ax => Fin.ext ?_)
  match ax with
  | ⟨0, _⟩ => show win0_0.index t (0 : Fin 2) * 1024 + 1 * p.val = r.val; omega
  | ⟨1, _⟩ => show win0_0.index t (1 : Fin 2) * 4096 + 1 * k.val = k.val; omega

/-- The weights' tile is rows (block row index)·256 … of the weights. -/
theorem wtile (c : Dev nD) (t : Fin cfg0.N) (h1 : win0_1.index t (1 : Fin 2) = 0)
    (q : Fin 256) (k : Fin 4096) (o : Fin 11008) (ho : o.val = win0_1.index t (0 : Fin 2) * 256 + q.val) :
    (iblk m c 1 t : Vec Ideal S256x4096 .i32) (ix2 q k) = (V m c main_arg1 : S11008x4096.Idx → BitVec 32) (ix2 o k) := by
  unfold iblk
  rw [View.read_apply]
  show V m c main_arg1 _ = V m c main_arg1 _
  refine congrArg (V m c main_arg1) (funext fun ax => Fin.ext ?_)
  match ax with
  | ⟨0, _⟩ => show win0_1.index t (0 : Fin 2) * 256 + 1 * q.val = o.val; omega
  | ⟨1, _⟩ => show win0_1.index t (1 : Fin 2) * 4096 + 1 * k.val = k.val; omega

/-- The scales' tile is columns (block column index)·256 … of the scale row. -/
theorem stile (c : Dev nD) (t : Fin cfg0.N) (h0 : win0_2.index t (0 : Fin 2) = 0)
    (q : Fin 256) (o : Fin 11008) (ho : o.val = win0_2.index t (1 : Fin 2) * 256 + q.val) :
    (iblk m c 2 t : Vec Ideal S1x256 .f32) (ix2 (0 : Fin 1) q) = (V m c main_v1 : S1x11008.Idx → EReal) (ix2 (0 : Fin 1) o) := by
  unfold iblk
  rw [View.read_apply]
  show V m c main_v1 _ = V m c main_v1 _
  refine congrArg (V m c main_v1) (funext fun ax => Fin.ext ?_)
  match ax with
  | ⟨0, _⟩ => show win0_2.index t (0 : Fin 2) * 1 + 1 * 0 = 0; omega
  | ⟨1, _⟩ => show win0_2.index t (1 : Fin 2) * 256 + 1 * q.val = o.val; omega

/-- The biases' tile likewise. -/
theorem btile (c : Dev nD) (t : Fin cfg0.N) (h0 : win0_3.index t (0 : Fin 2) = 0)
    (q : Fin 256) (o : Fin 11008) (ho : o.val = win0_3.index t (1 : Fin 2) * 256 + q.val) :
    (iblk m c 3 t : Vec Ideal S1x256 .f32) (ix2 (0 : Fin 1) q) = (V m c main_v2 : S1x11008.Idx → EReal) (ix2 (0 : Fin 1) o) := by
  unfold iblk
  rw [View.read_apply]
  show V m c main_v2 _ = V m c main_v2 _
  refine congrArg (V m c main_v2) (funext fun ax => Fin.ext ?_)
  match ax with
  | ⟨0, _⟩ => show win0_3.index t (0 : Fin 2) * 1 + 1 * 0 = 0; omega
  | ⟨1, _⟩ => show win0_3.index t (1 : Fin 2) * 256 + 1 * q.val = o.val; omega

/-- How the five windows move over the grid, decided once over its 86 points: the activations follow the output tile's
    row index, the weights, scales and biases its column index; the other block coordinates stay 0; the output tile's
    indices range over 2 × 43. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 1 ∧ win0_4.index t (1 : Fin 2) ≤ 42 :=
  (by decide +kernel : ∀ t : Fin grid0.N, _)

/-- Every tile of the 2 × 43 tiling is some point's. -/
theorem idx_onto : ∀ (q0 : Fin 2) (q1 : Fin 43), ∃ t : Fin cfg0.N, win0_4.index t = ![q0.val, q1.val] :=
  (by decide +kernel : ∀ (q0 : Fin 2) (q1 : Fin 43), ∃ t : Fin grid0.N, win0_4.index t = ![q0.val, q1.val])

/-- What point t writes back is tile t of `rows` of the arrays as the region finds them. -/
theorem flushed_eq (c : Dev nD) (t : Fin cfg0.N) :
    (dats m 0 c).flushed 4 t = ((cfg0.win 4).blk t).view.read (Elt Ideal)
      (rows (V m c main_v0) (V m c main_arg1) (V m c main_v1) (V m c main_v2)) := by
  show (cfg0.win 4).cut (grid0.coords t) ((dats m 0 c).after 4 t) = _
  rw [after0_4]
  unfold out0_4
  rw [View.canon_unit_zero hz]
  simp only [View.ld_unit_zero (S := S1024x4096) hz, View.ld_unit_zero (S := S256x4096) hz, View.ld_unit_zero (S := S1x256) hz]
  obtain ⟨e00, e01, e10, e11, e20, e21, e30, e31, -, -⟩ := idx_facts t
  funext y
  rw [View.read_apply]
  refine tile_at (iblk m c 0 t) (iblk m c 1 t) (iblk m c 2 t) (iblk m c 3 t)
    (V m c main_v0) (V m c main_arg1) (V m c main_v1) (V m c main_v2)
    (win0_4.index t (0 : Fin 2)) (win0_4.index t (1 : Fin 2))
    (fun p k r hr => xtile m c t e01 p k r (by rw [e00]; exact hr))
    (fun q k o ho => wtile m c t e11 q k o (by rw [e10]; exact ho))
    (fun q o ho => stile m c t e20 q o (by rw [e21]; exact ho))
    (fun q o ho => btile m c t e30 q o (by rw [e31]; exact ho))
    y (((cfg0.win 4).blk t).view.emb y) ?_ ?_
  · show win0_4.index t (0 : Fin 2) * 1024 + 1 * (y 0).val = win0_4.index t (0 : Fin 2) * 1024 + (y 0).val; omega
  · show win0_4.index t (1 : Fin 2) * 256 + 1 * (y 1).val = win0_4.index t (1 : Fin 2) * 256 + (y 1).val; omega

/-- A position of the result is in point t's tile iff each coordinate is in the tile's range on its axis. -/
theorem mem_blk (t : Fin cfg0.N) (i : S2048x11008.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v3).slice (win0_4.rect t)).set ↔ _
  rw [View.set_slice_whole, Rect.mem_set_unit]
  exact Iff.rfl

/-- The tiles cover the result: position (r, o) lies in the tile with indices (r / 1024, o / 256). -/
theorem covered (i : S2048x11008.Idx) :
    ∃ t : Fin cfg0.N, (cfg0.win 4).flush t = true ∧ i ∈ ((cfg0.win 4).blk t).view.set := by
  have hi0 : (i 0).val < 2048 := (i 0).isLt
  have hi1 : (i 1).val < 11008 := (i 1).isLt
  obtain ⟨t, ht⟩ := idx_onto ⟨(i 0).val / 1024, by omega⟩ ⟨(i 1).val / 256, by omega⟩
  have q0 : win0_4.index t (0 : Fin 2) = (i 0).val / 1024 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-- The result array after the region. -/
theorem final_rows (c : Dev nD) :
    (dats m 0 c).arrAt 4 cfg0.N = rows (V m c main_v0) (V m c main_arg1) (V m c main_v1) (V m c main_v2) :=
  (dats m 0 c).arrAt_eq_of_cover 4 _ (fun t _ => flushed_eq m c t) covered

end Cert.QuantLinear

end
-- ==== Proof.HostSide.lean ====
/-
  The kernel program around its pallas_call, and its result as the layer `affine` of the four arguments.

  Before the call the activations [4, 512, 4096] are flattened to [2048, 4096] (row 512·b + s is position (b, s)), and the
  scale and bias vectors [11008] are given a leading unit axis; the weights go in as they are. After the call the result
  [2048, 11008] is unflattened to [4, 512, 11008]. A reshape keeps row-major positions, so reading the flattened layer
  `rows` of the flattened arguments at row 512·b + s and channel o gives (∑ k, x[b, s, k] · w[o, k]) · scale[o] + bias[o].
-/
import proofs.«139617_j69956427317869_1_alg».proof.Proof.KernelArray
import proofs.«139617_j69956427317869_1_alg».proof.Proof.Linear
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.QuantLinear

open Idealize.ShloMosaic.ValueIdx
open Cert.KernelIdeal Cert.KernelIdeal.Gen

/-- The flattened layer of the flattened arguments, unflattened, is the layer: position (b, s, o) of the result is row
    512·b + s, channel o of `rows`, whose row of activations is x[b, s, ·] and whose scale and bias are those of channel o. -/
theorem unflatten (x : S4x512x4096.Idx → EReal) (w : S11008x4096.Idx → BitVec 32) (s b : S11008.Idx → EReal) :
    shapeCast S4x512x11008 (rows (shapeCast S2048x4096 x shapeCasts_S4x512x4096_S2048x4096) w
        (shapeCast S1x11008 s shapeCasts_S11008_S1x11008) (shapeCast S1x11008 b shapeCasts_S11008_S1x11008))
      shapeCasts_S2048x11008_S4x512x11008
      = affine x w s b := by
  funext i
  obtain ⟨p, q, o, rfl⟩ : ∃ (p : Fin 4) (q : Fin 512) (o : Fin 11008), i = ix3 p q o := ⟨i 0, i 1, i 2, eq_ix3 i⟩
  have hp : p.val < 4 := p.isLt
  have hq : q.val < 512 := q.isLt
  have hr : p.val * 512 + q.val < 2048 := by omega
  rw [shapeCast_apply _ shapeCasts_S2048x11008_S4x512x11008 (ix3 p q o) (ix2 (⟨p.val * 512 + q.val, hr⟩ : Fin 2048) o) (by
    rw [Shape.rowMajor_val_two, Shape.rowMajor_val_three]; rfl)]
  show rowsAt _ w _ _ (⟨p.val * 512 + q.val, hr⟩ : Fin 2048) o = affineAt x w s b p q o
  unfold rowsAt affineAt
  rw [shapeCast_a_1a_apply, shapeCast_a_1a_apply]
  refine congrArg (fun z => z * s (ix1 o) + b (ix1 o)) (Finset.sum_congr rfl fun k _ => ?_)
  rw [shapeCast_apply x shapeCasts_S4x512x4096_S2048x4096 (ix2 (⟨p.val * 512 + q.val, hr⟩ : Fin 2048) k) (ix3 p q k) (by
    rw [Shape.rowMajor_val_two, Shape.rowMajor_val_three]; rfl)]

variable (m : (ℓ : Loc nD τ sig) → Buf (Elt Ideal) ℓ) (ρ : Dev nD → PrngReg)

/-- The region finds the activations flattened, -/
theorem V_act (c : Dev nD) : (V m c main_v0 : S2048x4096.Idx → EReal)
    = shapeCast S2048x4096 (m ((c : Thread nD τ).loc main_arg0) : S4x512x4096.Idx → EReal) shapeCasts_S4x512x4096_S2048x4096 := by
  show StableHlo.after hostOps0 (fun b => m (c, b)) (Proc.devRef .tc main_v0) = _
  after_results
  rfl
/-- the scales as a row, -/
theorem V_scale (c : Dev nD) : (V m c main_v1 : S1x11008.Idx → EReal)
    = shapeCast S1x11008 (m ((c : Thread nD τ).loc main_arg2) : S11008.Idx → EReal) shapeCasts_S11008_S1x11008 := by
  show StableHlo.after hostOps0 (fun b => m (c, b)) (Proc.devRef .tc main_v1) = _
  after_results
  rfl
/-- and the biases as a row. -/
theorem V_bias (c : Dev nD) : (V m c main_v2 : S1x11008.Idx → EReal)
    = shapeCast S1x11008 (m ((c : Thread nD τ).loc main_arg3) : S11008.Idx → EReal) shapeCasts_S11008_S1x11008 := by
  show StableHlo.after hostOps0 (fun b => m (c, b)) (Proc.devRef .tc main_v2) = _
  after_results
  rfl

/-- The program's result: the reshape after the region reads the region's array, which is `rows` of the arrays the region
    found, and unflattened that is the layer of the four arguments. -/
theorem result_eq (c : Dev nD) :
    Pipeline.afterTail₀ cfgs (dats m) 0 (V0 m) [hostOps1] c main_v4
      = affine (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  refine Eq.trans (congrArg (fun A => shapeCast S4x512x11008 A shapeCasts_S2048x11008_S4x512x11008)
    ((Pipeline.withArrays_arr spec0 launch0.win.arr_inj c _ _ 4).trans (final_rows m c))) ?_
  rw [V_act, V_scale, V_bias, V_main_arg1]
  exact unflatten _ _ _ _

/-- The kernel program's run, read: the result at the layer of the arguments, the arguments unchanged. -/
theorem kernel_run : θ_run defs (onTc (τ := τ) (main (F := Ideal))) ⟨m, fun _ => 0, ρ⟩ fun r => ∀ c : Dev nD,
      r.2.mem ((c.tc : Thread nD τ).loc main_v4)
        = affine (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.QuantLinear

end
-- ==== Proof.lean ====
/-
  A linear layer with 8-bit integer weights stored in 32-bit words, one positive scale per output channel and a bias:
      y[b, s, o] = ∑ k, x[b, s, k] · (w[o, k] · scale[o]) + bias[o]        (the reference: dequantise, then contract)
      y[b, s, o] = (∑ k, x[b, s, k] · w[o, k]) · scale[o] + bias[o]        (the kernel: contract, then scale once per tile)
  over activations [4, 512, 4096], weights [11008, 4096] and channel vectors [11008]. The scale depends on the output
  channel only, so it is a common factor of every term of the sum over k; on the extended reals a common factor leaves a
  sum when the terms are real numbers, which the precondition gives for the activations and the scales and which holds of
  every integer weight read as a number. The bias is added last on both sides.

  The kernel computes the layer tile by tile, 1024 flattened rows by 256 channels, on a 2 × 43 grid; each tile's value is
  the flattened layer restricted to the tile, the tiles cover the [2048, 11008] result, and the reshapes around the call
  keep row-major positions. The reference is read one operation at a time. Both results are the array `affine` of the four
  arguments. Narrowing to bfloat16 before the contraction is the identity on exact values, and nothing was rewritten when
  the kernel was idealized, so the idealization claim has no conjunct.
-/
import proofs.«139617_j69956427317869_1_alg».proof.Defs
import proofs.«139617_j69956427317869_1_alg».proof.Proof.Gen.Kernel
import proofs.«139617_j69956427317869_1_alg».proof.Proof.Gen.Kernel.Skeleton
import proofs.«139617_j69956427317869_1_alg».proof.Proof.Gen.Kernel.Launch
import proofs.«139617_j69956427317869_1_alg».proof.Proof.Gen.Kernel.Points
import proofs.«139617_j69956427317869_1_alg».proof.Proof.Gen.Kernel.Frame
import proofs.«139617_j69956427317869_1_alg».proof.Proof.Gen.KernelIdeal
import proofs.«139617_j69956427317869_1_alg».proof.Proof.Gen.KernelIdeal.Skeleton
import proofs.«139617_j69956427317869_1_alg».proof.Proof.Gen.KernelIdeal.Launch
import proofs.«139617_j69956427317869_1_alg».proof.Proof.Gen.KernelIdeal.Points
import proofs.«139617_j69956427317869_1_alg».proof.Proof.Gen.KernelIdeal.Frame
import proofs.«139617_j69956427317869_1_alg».proof.Proof.Gen.ReferenceIdeal
import proofs.«139617_j69956427317869_1_alg».proof.Proof.Gen.ReferenceIdeal.Run
import proofs.«139617_j69956427317869_1_alg».proof.Proof.Gen.ReferenceIdeal.Read
import proofs.«139617_j69956427317869_1_alg».proof.Proof.Gen.Pre_finite_inputs
import proofs.«139617_j69956427317869_1_alg».proof.Proof.Linear
import proofs.«139617_j69956427317869_1_alg».proof.Proof.Finite
import proofs.«139617_j69956427317869_1_alg».proof.Proof.RefSide
import proofs.«139617_j69956427317869_1_alg».proof.Proof.HostSide
import Idealize.ShloMosaic.Adequacy
import Idealize.ShloMosaic.Init

noncomputable section

namespace Cert.Proof

open Idealize.ShloMosaic Idealize.ShloMosaic.TcCoe Idealize.SL.Sem

/-- The word-level kernel and its idealization run, fault-free, and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
/-- The reference is eight host operations in a row: it runs, and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- From memories that agree on the four arguments, with real activations, scales and biases, both programs end with
    the result array at (∑ k, x · w) · scale + bias: the kernel by its tiles, the reference by moving the channel's
    scale out of the sum. -/
theorem algebraic : Cert.algebraic_KernelIdeal_ReferenceIdeal := by
  intro m ρ m' ρ' hpre hagree
  refine ⟨fun c => Cert.QuantLinear.affine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.QuantLinear.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs, -⟩ := Cert.QuantLinear.real_entries_of_pre _ _ _ _ (hpre c)
  rw [(hagree c).1, (hagree c).2.1, (hagree c).2.2.1, (hagree c).2.2.2]
  exact (Cert.ReferenceIdeal.Read.val_main_v7_eq _ _ _ _).trans (Cert.QuantLinear.reference_eq_affine _ _ _ _ hx hs)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
